-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20000 : Shape := ⟨2, ![4096, 20000]⟩
abbrev S4096 : Shape := ⟨1, ![4096]⟩
abbrev S_ : Shape := ⟨0, ![]⟩

class Facts : Prop where
  bcast_S_S4096x20000 : S_.BroadcastsInDim S4096x20000 (![] : Fin 0 → Fin S4096x20000.rank)
  reducesTo_S4096x20000_S_d0_1 : S4096x20000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x20000 .f32) (main_arg1 : IVec S4096 32) : IVec S_ 1 :=
  let main_v0 : FVec F S4096x20000 .f32 := Host.absf main_arg0
  let main_cst : FVec F S_ .f32 := constant S_ .f32 0x7F800000#32
  let main_v1 : FVec F S4096x20000 .f32 := broadcastInDim S4096x20000 ![] bcast_S_S4096x20000 main_cst
  let main_v2 : IVec S4096x20000 1 := cmpf .olt main_v0 main_v1
  let main_c : IVec S_ 1 := constantI S_ 1 1#1
  let main_v3 : IVec S_ 1 := (fun x v => Host.reduce IntOp.andi x v reducesTo_S4096x20000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 20000#32
  let main_v6 : IVec S4096 32 := broadcastInDim S4096 ![] bcast_S_S4096 main_c_1
  let main_v7 : IVec S4096 1 := cmpi .slt main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x20000 : Shape := ⟨2, ![4096, 20000]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S128x20000 : Shape := ⟨2, ![128, 20000]⟩
abbrev S128x1 : Shape := ⟨2, ![128, 1]⟩
abbrev S128x1280 : Shape := ⟨2, ![128, 1280]⟩
abbrev S128 : Shape := ⟨1, ![128]⟩
abbrev S128x800 : Shape := ⟨2, ![128, 800]⟩

abbrev nBuf : Space → Nat
  | .hbm => 32
  | .vmem => 6
  | .smem => 0
  | _ => 0

abbrev bufTy : (tb : Table) → Fin (tcTables nBuf tb) → BufTy
  | .hbm, ⟨0, _⟩ => ⟨S4096x20000, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S128x20000, .f32⟩
  | .local _ .vmem, ⟨1, _⟩ => ⟨S128x20000, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | _, _ => ⟨S4096x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c15_i32 : BitVec 32 := 15#32
  let v1 : BitVec 32 := Scalar.addi c0_i32 c15_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1280_i32 : BitVec 32 := 1280#32
  let v27 : BitVec 32 := Scalar.muli arg4 c1280_i32
  v27
def k0_off1 (k0_t1 : Fin k0_t1_loop.trips) : Fin 2 → Nat :=
  let c0_10 : Index := 0#32
  let c0_i32 : BitVec 32 := 0#32
  let c1_i32 : BitVec 32 := 1#32
  let arg4 : BitVec 32 := Scf.iv c0_i32 c1_i32 k0_t1
  let c1280_i32 : BitVec 32 := 1280#32
  let v27 : BitVec 32 := Scalar.muli arg4 c1280_i32
  let v28 : BitVec 32 := v27
  let v29 : Index := Scalar.indexCast v28
  ![0, v29.toNat]
def k0_mult2 : BitVec 32 :=
  let c19200_i32 : BitVec 32 := 19200#32
  c19200_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  h_S128x1280 : 0 < S128x1280.numel
  reduces_S128x1280_S128 : S128x1280.Reduces [1] S128
  shapeCasts_S128_S128x1 : S128.ShapeCasts S128x1
  inb_S128x20000_S128x800_0_19200 : ∀ a, (![0, 19200] : Fin 2 → Nat) a + S128x800.size a ≤ S128x20000.size a
  h_S128x800 : 0 < S128x800.numel
  reduces_S128x800_S128 : S128x800.Reduces [1] S128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S4096x1_S4096 : S4096x1.ShapeCasts S4096
  reducesTo_S4096_S_d0 : S4096.ReducesTo [0] S_
  gather_S4096x20000_S4096x1x1_S4096x1_n_1_0_0_1_2_11_wf : GatherDims.WF S4096x20000 S4096x1x1 S4096x1 [] [1] [0] [1] [0] 2 ![1, 1]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x1280.size a ≤ S128x20000.size a
  k0_mult2_dvd : 128 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x20000.size a ≤ S4096x20000.size a
  hwx0_0 : ∀ i : grid0.Coords, EltTy.bits .f32 = 32 ∨ (Rect.block (s := S4096x20000) S128x20000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .f32 = 32 ∨ (Rect.block (s := S4096x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)

variable [Facts₀]

def gather_S4096x20000_S4096x1x1_S4096x1_n_1_0_0_1_2_11 : GatherDims S4096x20000 S4096x1x1 S4096x1 where
  offsetDims := []
  collapsedSliceDims := [1]
  operandBatchingDims := [0]
  startIndicesBatchingDims := [0]
  startIndexMap := [1]
  indexVectorDim := 2
  sliceSizes := ![1, 1]
  wf := gather_S4096x20000_S4096x1x1_S4096x1_n_1_0_0_1_2_11_wf

abbrev win0_0 : Pipeline.Window sig grid0 :=
  Pipeline.Window.ofSpec (Memref.whole main_arg0) S128x20000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x20000 : Shape := ⟨2, ![4096, 20000]⟩
abbrev S4096 : Shape := ⟨1, ![4096]⟩
abbrev S_ : Shape := ⟨0, ![]⟩
abbrev S4096x1 : Shape := ⟨2, ![4096, 1]⟩
abbrev S4096x2 : Shape := ⟨2, ![4096, 2]⟩

abbrev nBuf : Space → Nat
  | .hbm => 61
  | .vmem => 0
  | .smem => 0
  | _ => 0

abbrev bufTy : (tb : Table) → Fin (tcTables nBuf tb) → BufTy
  | .hbm, ⟨0, _⟩ => ⟨S4096x20000, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096x20000, .f32⟩
  | .hbm, ⟨29, _⟩ => ⟨S4096x20000, .f32⟩
  | .hbm, ⟨30, _⟩ => ⟨S4096x20000, .f32⟩
  | .hbm, ⟨31, _⟩ => ⟨S_, .f32⟩
  | .hbm, ⟨32, _⟩ => ⟨S4096, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096x1, .i32⟩
  | .hbm, ⟨49, _⟩ => ⟨S4096x2, .i32⟩
  | .hbm, ⟨50, _⟩ => ⟨S4096, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S4096x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_c_6 : Ref sig .tc := ⟨.hbm, 33, rfl⟩
abbrev main_v23 : Ref sig .tc := ⟨.hbm, 34, rfl⟩
abbrev main_v24 : Ref sig .tc := ⟨.hbm, 35, rfl⟩
abbrev main_c_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_8 : Ref sig .tc := ⟨.hbm, 40, rfl⟩
abbrev main_v28 : Ref sig .tc := ⟨.hbm, 41, rfl⟩
abbrev main_v29 : Ref sig .tc := ⟨.hbm, 42, rfl⟩
abbrev main_c_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S4096x20000 : S_.BroadcastsInDim S4096x20000 (![] : Fin 0 → Fin S4096x20000.rank)
  reducesTo_S4096x20000_S4096_d1 : S4096x20000.ReducesTo [1] S4096
  h_S_ : 0 < S_.numel
  reducesTo_S4096_S_d0 : S4096.ReducesTo [0] S_
  gather_S4096x20000_S4096x2_S4096_n_01_n_n_01_1_11_wf : GatherDims.WF S4096x20000 S4096x2 S4096 [] [0, 1] [] [0, 1] [] 1 ![1, 1]

variable [Facts₀]

def gather_S4096x20000_S4096x2_S4096_n_01_n_n_01_1_11 : GatherDims S4096x20000 S4096x2 S4096 where
  offsetDims := []
  collapsedSliceDims := [0, 1]
  operandBatchingDims := []
  startIndicesBatchingDims := []
  startIndexMap := [0, 1]
  indexVectorDim := 1
  sliceSizes := ![1, 1]
  wf := gather_S4096x20000_S4096x2_S4096_n_01_n_n_01_1_11_wf

class Facts : Prop extends Facts₀ where

variable [Facts]
-- ==== Proof.Spec.lean ====
/-
  The loss both programs compute, as one function of the argument arrays.

  Row `i` of the logits `wf : [4096, 20000]` and its label `l i` give the additive-margin softmax term
      L i = s·(t − m) − log( exp(s·(t − m)) + ( Σ_j exp(s·wf[i, j]) − exp(s·t) ) ),    t = wf[i, l i],
  with the scale `s` and the margin `m` the extended reals their f32 words denote, and the result is the negated mean
  `−( (0 + Σ_i L i) / 4096 )`. The label is read as a column index: a word below 20000 unsigned is its own column.
-/
import Idealize.ShloMosaic.PureOps.Ideal
import Idealize.ShloMosaic.Lib.ValueIdx

noncomputable section

namespace Cert.MarginLoss

open Idealize.ShloMosaic Idealize.ShloMosaic.ValueIdx

/-- The logits' shape, the labels' shape, the scalar's. -/
abbrev SW : Shape := ⟨2, ![4096, 20000]⟩
abbrev SL : Shape := ⟨1, ![4096]⟩
abbrev S0 : Shape := ⟨0, ![]⟩

/-- The scale `30` and the margin `0.4` (the f32 nearest it): the same words in both programs, never evaluated. -/
def scale : EReal := Ideal.ofBits .f32 0x41F00000#32
def margin : EReal := Ideal.ofBits .f32 0x3ECCCCCD#32

/-- `Σ_j exp(s·x_j)` over one row of 20000 logits. -/
def expSum (x : Fin 20000 → EReal) : EReal := ∑ j : Fin 20000, Ideal.exp (scale * x j)

/-- One row's term, from the row `x` and its target logit `t`. -/
def rowLoss (x : Fin 20000 → EReal) (t : EReal) : EReal :=
  scale * (t - margin) - Ideal.log (Ideal.exp (scale * (t - margin)) + (expSum x - Ideal.exp (scale * t)))

/-- Every label is a class index: below 20000 as an unsigned word (so non-negative and below 20000 as a signed one). -/
def InRange (l : SL.Idx → BitVec 32) : Prop := ∀ i : SL.Idx, (l i).toNat < 20000

/-- The column a label names (clamped into the row, which changes nothing for a label in range). -/
def col (w : BitVec 32) : Fin 20000 := ⟨min w.toNat 19999, by omega⟩

/-- The target logit of row `i`. -/
def target (wf : SW.Idx → EReal) (l : SL.Idx → BitVec 32) (i : Fin 4096) : EReal := wf (ix2 i (col (l (ix1 i))))

/-- The rows' terms, as a vector over the batch. -/
def lossVec (wf : SW.Idx → EReal) (l : SL.Idx → BitVec 32) : SL.Idx → EReal :=
  fun i => rowLoss (fun j => wf (ix2 (i 0) j)) (target wf l (i 0))

/-- The negated mean of a vector over the batch, as the host computes it: the sum from `0`, the quotient by the word of `4096`,
    the negation. Both programs end with these operations on their rows' terms. -/
def negMean (h : SL.ReducesTo [0] S0) (h0 : 0 < S0.numel) (L : SL.Idx → EReal) : S0.Idx → EReal :=
  Host.negf (F := Ideal) (Host.divf (F := Ideal) (Host.reduceAdd (F := Ideal) (φ := .f32) L (constant (F := Ideal) S0 .f32 0x00000000#32) h h0)
    (constant (F := Ideal) S0 .f32 0x45800000#32))

end Cert.MarginLoss

end
-- ==== Proof.PreRange.lean ====
/-
  What the precondition says of the labels: its second conjunct is `all (labels ≥ 0 ∧ labels < 20000)`, compared signed, so every
  label is a word below 20000 unsigned — a column of the logits.
-/
import proofs.«402520_j69552700391485_3_alg».proof.Proof.Spec
import proofs.«402520_j69552700391485_3_alg».proof.Pre_finite_inputs
import Idealize.ShloMosaic.Lib.ReduceAll

noncomputable section

namespace Cert.MarginLoss

open Idealize.ShloMosaic Idealize.ShloMosaic.ValueIdx

/-- A word that is at least 0 and below 20000 as a signed integer is below 20000 as a natural number. -/
theorem toNat_lt_of_signed (w : BitVec 32) (h0 : IntOp.cmpi .sge w 0#32 = 1#1) (h1 : IntOp.cmpi .slt w 20000#32 = 1#1) :
    w.toNat < 20000 := by
  rw [IntOp.cmpi_sge] at h0
  rw [IntOp.cmpi_slt] at h1
  have e0 : (0#32 : BitVec 32).toInt = 0 := by decide
  have e1 : (20000#32 : BitVec 32).toInt = 20000 := by decide
  rw [e0] at h0
  rw [e1] at h1
  have hw := w.isLt
  unfold BitVec.toInt at h0 h1
  split at h0 <;> split at h1 <;> omega

/-- The precondition, all ones, puts every label in range. -/
theorem inRange_of_pre [Cert.Pre_finite_inputs.Facts] {F : FTy → Type} [FloatOps F]
    (x0 : FVec F Cert.Pre_finite_inputs.S4096x20000 .f32) (x1 : IVec Cert.Pre_finite_inputs.S4096 32)
    (h : Cert.Pre_finite_inputs.fn x0 x1 = fun _ => 1#1) : InRange x1 := by
  haveI : Subsingleton Cert.Pre_finite_inputs.S_.Idx := ⟨fun a b => funext fun d => d.elim0⟩
  have e := congrFun h ix0
  dsimp only [Cert.Pre_finite_inputs.fn] at e
  obtain ⟨-, e2⟩ := IntOp.andi_eq_one.1 e
  intro i
  have e3 := Host.reduce_andi_all _ _ _ _ ix0 e2 i
  obtain ⟨a, b⟩ := IntOp.andi_eq_one.1 e3
  exact toNat_lt_of_signed _ a b

end Cert.MarginLoss

end
-- ==== Proof.KTarget.lean ====
/-
  The target column the kernel's region is given: the host lines before the region gather, for each row, the logit in
  the label's column (and would fill a not-a-number where a label is out of range: for labels in range they never do).

  The words: a label below 20000 has its sign bit clear, so the negative-index wrap leaves it alone and the range test
  [0, 19999] passes. The gather: operand axis 0 is a batching axis read off the result's row, operand axis 1 is indexed
  by the start index read signed and clamped into [0, 19999], which for such a label is the label itself.
-/
import proofs.«402520_j69552700391485_3_alg».proof.Proof.Spec
import proofs.«402520_j69552700391485_3_alg».proof.Proof.Gen.KernelIdeal.Frame
import Idealize.ShloMosaic.Lib.StableHlo.Run
import Idealize.ShloMosaic.Lib.StableHlo.Predicate
import Idealize.ShloMosaic.Lib.Pipeline.Value
import Idealize.ShloMosaic.Lib.ValueIdx

noncomputable section

namespace Cert.KernelIdeal.Target

open Cert.KernelIdeal Cert.KernelIdeal.Gen Cert.MarginLoss
open Idealize.ShloMosaic Idealize.ShloMosaic.TcCoe Idealize.SL.Sem Idealize.ShloMosaic.ValueIdx

/-! ## Words below 20000

A label word whose value is below 20000 has its sign bit clear: it is not negative, it is at least 0 and at most 19999
as a signed word, and it reads the same signed and unsigned. -/

section Words
open Idealize.ShloMosaic.StableHlo.Predicate

theorem word_not_neg (w : BitVec 32) (hw : w.toNat < 20000) : IntOp.cmpi .slt w 0#32 = 0#1 :=
  eq_zero_of_ne_one fun h => absurd ((slt_iff_toNat (by omega) (by decide)).1 h) (by
    show ¬ w.toNat < 0
    omega)

theorem word_ge_zero (w : BitVec 32) (hw : w.toNat < 20000) : IntOp.cmpi .sge w 0#32 = 1#1 :=
  (sge_iff_toNat (by omega) (by decide)).2 (by
    show 0 ≤ w.toNat
    omega)

theorem word_le_top (w : BitVec 32) (hw : w.toNat < 20000) : IntOp.cmpi .sle w 19999#32 = 1#1 :=
  (sle_iff_toNat (by omega) (by decide)).2 (by
    show w.toNat ≤ 19999
    omega)

theorem word_toInt (w : BitVec 32) (hw : w.toNat < 20000) : w.toInt.toNat = w.toNat := by
  rw [toInt_eq_toNat_of_lt (by omega)]
  exact Int.toNat_natCast _

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    show List.foldl (fun r n => IntOp.andi r (f n)) (IntOp.andi 1#1 (f a)) l = 1#1
    rw [hf a, show IntOp.andi 1#1 1#1 = 1#1 from by decide]
    exact foldl_andi_ones f hf l

end Words

/-! ## The gather read at an index

The operand is [4096, 20000], the start indices [4096, 1, 1], the result [4096, 1]. Operand axis 0 is a batching axis: its
coordinate is the result's row. Operand axis 1 is the one axis of the start index map and is collapsed: its coordinate
is the start index at (row, column, 0), read signed and clamped into [0, 19999]. -/

section Gather
variable {α : Type}

local notation "gd" => gather_S4096x20000_S4096x1x1_S4096x1_n_1_0_0_1_2_11

/-- The gather at (r, q) is the operand at row r, column the clamped start index. -/
theorem gather_apply (x : S4096x20000.Idx → α) (idx : IVec S4096x1x1 32) (r : Fin 4096) (q : Fin 1) :
    Host.gather gd x idx (ix2 r q)
      = x (ix2 r (⟨min (idx (ix3 r q (0 : Fin 1))).toInt.toNat 19999, by omega⟩ : Fin 20000)) := by
  unfold Host.gather
  congr 1
  funext a
  refine Fin.ext ?_
  show GatherDims.start gd (ix2 r q) idx a + GatherDims.batchCoord gd (ix2 r q) a + GatherDims.offCoord gd (ix2 r q) a = _
  match a with
  | ⟨0, _⟩ =>
    -- the batching axis: no start, no offset, the row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by omega⟩ : Fin 2) ∈ GatherDims.operandBatchingDims gd from List.mem_singleton.mpr rfl)]
    rfl
  | ⟨1, _⟩ =>
    -- the indexed, collapsed axis: the clamped start, no batching coordinate, no offset
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (⟨1, by omega⟩ : Fin 2) ∈ GatherDims.startIndexMap gd from List.mem_singleton.mpr rfl)]
    have hsi : GatherDims.siIdx gd (ix2 r q) ⟨List.idxOf (⟨1, by omega⟩ : Fin 2) (GatherDims.startIndexMap gd),
        List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi]
    rfl

end Gather

/-! ## The host lines before the region, as one term, read at an index -/

section Read

local notation "gd" => gather_S4096x20000_S4096x1x1_S4096x1_n_1_0_0_1_2_11

/-- The labels as a [4096, 1] column. -/
abbrev labCol (l : IVec S4096 32) : IVec S4096x1 32 := broadcastInDim S4096x1 ![0] bcast_S4096_S4096x1_0 l
/-- A negative index counted from the end: where the label is negative, the label plus 20000. -/
abbrev wrapCol (l : IVec S4096 32) : IVec S4096x1 32 :=
  select (cmpi .slt (labCol l) (broadcastInDim S4096x1 ![] bcast_S_S4096x1 (constantI S_ 32 0#32)))
    (addi (labCol l) (broadcastInDim S4096x1 ![] bcast_S_S4096x1 (constantI S_ 32 20000#32))) (labCol l)
/-- The start indices, [4096, 1, 1]. -/
abbrev idxArr (l : IVec S4096 32) : IVec S4096x1x1 32 := shapeCast S4096x1x1 (wrapCol l) shapeCasts_S4096x1_S4096x1x1
/-- Each start index tested against [0, 19999]. -/
abbrev okArr (l : IVec S4096 32) : IVec S4096x1x1 1 :=
  andi (cmpi .sge (idxArr l) (broadcastInDim S4096x1x1 ![] bcast_S_S4096x1x1 (constantI S_ 32 0#32)))
    (cmpi .sle (idxArr l) (broadcastInDim S4096x1x1 ![0, 1, 2] bcast_S1x1x1_S4096x1x1_0_1_2
      (broadcastInDim S1x1x1 ![2] bcast_S1_S1x1x1_2 (constantI S1 32 19999#32))))
/-- The tests of one row and column conjoined over the last, size-one axis. -/
abbrev maskCol (l : IVec S4096 32) : IVec S4096x1 1 :=
  Host.reduce IntOp.andi (okArr l) (constantI S_ 1 1#1) reducesTo_S4096x1x1_S4096x1_d2 h_S_
/-- What the host lines leave in the target column: the gathered logit where the test passed, a not-a-number elsewhere. -/
def hostTarget (wf : S4096x20000.Idx → EReal) (l : IVec S4096 32) : S4096x1.Idx → EReal :=
  select (maskCol l) (Host.gather gd wf (idxArr l))
    (broadcastInDim S4096x1 ![] bcast_S_S4096x1 (constant (F := Ideal) S_ .f32 0x7FC00000#32))

variable (l : IVec S4096 32)

/-- The column at (r, q) is the label of row r. -/
theorem labCol_apply (r : Fin 4096) (q : Fin 1) : labCol l (ix2 r q) = l (ix1 r) :=
  broadcastInDim_apply _ bcast_S4096_S4096x1_0 l (ix2 r q) (ix1 r) (fun a => match a with
    | ⟨0, _⟩ => by show r.val = if (4096 : Nat) = 1 then 0 else r.val; rw [if_neg (by decide)])

/-- A label below 20000 is not negative, so the wrapped index is the label. -/
theorem wrapCol_apply (r : Fin 4096) (q : Fin 1) (hl : (l (ix1 r)).toNat < 20000) : wrapCol l (ix2 r q) = l (ix1 r) := by
  show Scalar.select (IntOp.cmpi .slt (labCol l (ix2 r q)) 0#32) (IntOp.addi (labCol l (ix2 r q)) 20000#32) (labCol l (ix2 r q)) = _
  rw [labCol_apply, word_not_neg _ hl, select_zero]

/-- The reshape keeps the row-major position: (r, q, 0) reads (r, q). -/
theorem idxArr_apply (r : Fin 4096) (q : Fin 1) : idxArr l (ix3 r q (0 : Fin 1)) = wrapCol l (ix2 r q) :=
  shapeCast_apply (wrapCol l) shapeCasts_S4096x1_S4096x1x1 (ix3 r q (0 : Fin 1)) (ix2 r q) (by
    rw [Shape.rowMajor_val_two, Shape.rowMajor_val_three]
    show r.val * 1 + q.val = (r.val * 1 + q.val) * 1 + 0
    omega)

/-- Every start index of labels below 20000 passes the range test. -/
theorem okArr_eq_one (hl : ∀ i, (l i).toNat < 20000) (i : S4096x1x1.Idx) : okArr l i = 1#1 := by
  obtain ⟨r, q, z, rfl⟩ : ∃ r q z, i = ix3 r q z := ⟨_, _, _, eq_ix3 i⟩
  obtain rfl : z = 0 := Subsingleton.elim _ _
  show IntOp.andi (IntOp.cmpi .sge (idxArr l (ix3 r q (0 : Fin 1))) 0#32) (IntOp.cmpi .sle (idxArr l (ix3 r q (0 : Fin 1))) 19999#32) = 1#1
  rw [idxArr_apply, wrapCol_apply l r q (hl _), word_ge_zero _ (hl _), word_le_top _ (hl _)]
  decide

/-- So the conjunction over the last axis is 1 at every row. -/
theorem maskCol_eq_one (hl : ∀ i, (l i).toNat < 20000) (j : S4096x1.Idx) : maskCol l j = 1#1 := by
  unfold maskCol Host.reduce
  exact foldl_andi_ones _ (fun n => okArr_eq_one l hl _) _

/-- THE TARGET COLUMN at (r, q): the logit of row r in the label's column. -/
theorem hostTarget_apply (wf : S4096x20000.Idx → EReal) (hl : ∀ i, (l i).toNat < 20000) (r : Fin 4096) (q : Fin 1) :
    hostTarget wf l (ix2 r q) = target wf l r := by
  show Scalar.select (maskCol l (ix2 r q)) (Host.gather gd wf (idxArr l) (ix2 r q)) _ = _
  rw [maskCol_eq_one l hl, select_one, gather_apply]
  unfold target
  congr 1
  funext a
  match a with
  | ⟨0, _⟩ => rfl
  | ⟨1, _⟩ =>
    refine Fin.ext ?_
    show min (idxArr l (ix3 r q (0 : Fin 1))).toInt.toNat 19999 = min (l (ix1 r)).toNat 19999
    rw [idxArr_apply, wrapCol_apply l r q (hl _), word_toInt _ (hl _)]

end Read

variable (m : (ℓ : Loc nD τ sig) → Buf (Elt Ideal) ℓ)

set_option maxHeartbeats 1000000 in
/-- The [4096, 1] array the region's second window reads, as the region finds it: row `i` holds the target logit. -/
theorem target_eq (c : Dev nD) (hl : InRange (m ((c : Thread nD τ).loc main_arg1))) :
    (V (F := Ideal) m c main_v1 : S4096x1.Idx → EReal)
      = fun y => target (m ((c : Thread nD τ).loc main_arg0)) (m ((c : Thread nD τ).loc main_arg1)) (y 0) := by
  have e : (V (F := Ideal) m c main_v1 : S4096x1.Idx → EReal)
      = hostTarget (m ((c : Thread nD τ).loc main_arg0)) (m ((c : Thread nD τ).loc main_arg1)) := by
    dsimp only [V, V0]
    simp only [hostOps0, hostOps0_1, List.flatten_cons, List.flatten_nil, List.append_nil, List.cons_append, List.nil_append]
    after_results_simp
    rfl
  rw [e]
  funext y
  obtain ⟨r, q, rfl⟩ : ∃ r q, y = ix2 r q := ⟨_, _, eq_ix2 y⟩
  exact hostTarget_apply _ _ hl r q

end Cert.KernelIdeal.Target

end
-- ==== Proof.KBody.lean ====
/-
  What the kernel body leaves in its output block, as a value.

  The body walks a [128, 20000] block of logits in fifteen chunks of 1280 columns, carrying a [128, 1] column of running sums, adds an
  800-column remainder, and stores one [128, 1] column: per row `r`, with `t` the row's target logit,
      s·(t − m) − log( exp(s·(t − m)) + ( Σ_j exp(x[r, j]·s) − exp(s·t) ) ).
  The running column after `n` chunks is the sum of the row's first `1280·n` exponentials (an induction over the trips), so after the
  remainder it is the sum over the whole row, and the stored column is the additive-margin softmax term of each row (Spec.lean).
-/
import proofs.«402520_j69552700391485_3_alg».proof.Proof.Spec
import proofs.«402520_j69552700391485_3_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

set_option maxRecDepth 16384

noncomputable section

namespace Cert.KernelIdeal.Body

open Cert.KernelIdeal Cert.KernelIdeal.Gen Cert.MarginLoss
open Idealize.ShloMosaic Idealize.ShloMosaic.TcCoe Idealize.SL.Sem Idealize.ShloMosaic.ValueIdx

/-! ## The body's stored column, at any float family -/

section AnyFamily

variable {F : FTy → Type} [FloatOps F]

theorem hz : (![0, 0] : Fin 2 → Nat) = fun _ => 0 := funext fun a => by fin_cases a <;> rfl

/-- Chunk `k` of the logits block: columns `1280·k … 1280·k + 1279`, all 128 rows. -/
abbrev chunk (x0 : Vec F S128x20000 .f32) (k : Fin k0_t1_loop.trips) : Vec F S128x1280 .f32 :=
  View.ld x0 (Rect.unit (s := S128x20000) (k0_off1 k) S128x1280.size (k0_off1_inb k))

/-- The remainder: columns `19200 … 19999`. -/
abbrev rest (x0 : Vec F S128x20000 .f32) : Vec F S128x800 .f32 :=
  View.ld x0 (Rect.unit (s := S128x20000) ![0, 19200] S128x800.size inb_S128x20000_S128x800_0_19200)

/-- One trip of the loop, on a staging buffer holding the block `x0`: the carried column plus the chunk's row sums. -/
theorem trip_eq (𝒱 : Variants) (c : Dev nD) (bd : Option 𝒱.V) (i : grid0.Coords)
    (a1 : Memref sig .tc .vmem S128x20000 .f32) (h1 : a1.IsWhole) (a2 : Memref sig .tc .vmem S128x1 .f32) (h2 : a2.IsWhole)
    (a3 : Memref sig .tc .vmem S128x1 .f32) (h3 : a3.IsWhole) (x0 : Vec F S128x20000 .f32)
    (k : Fin k0_t1_loop.trips) (acc : FVec F S128x1 .f32) :
    tripR_k0_t1 (F := F) 𝒱 c bd i a1 h1 a2 h2 a3 h3 (h1.unread x0) k acc = k0_pay2 acc (chunk x0 k) := by
  unfold tripR_k0_t1 trip_k0_t1
  dsimp only
  simp only [View.readAt_eq_ld, h1.read_unread]

/-- The column carried out of the loop when the staging buffer holds `x0`. -/
abbrev carried (c : Dev nD) (i : grid0.Coords)
    (a1 : Memref sig .tc .vmem S128x20000 .f32) (h1 : a1.IsWhole) (a2 : Memref sig .tc .vmem S128x1 .f32) (h2 : a2.IsWhole)
    (a3 : Memref sig .tc .vmem S128x1 .f32) (h3 : a3.IsWhole) (x0 : Vec F S128x20000 .f32) (n : ℕ) : FVec F S128x1 .f32 :=
  st_k0_t1 (F := F) Variants.none c none i a1 h1 a2 h2 a3 h3 (h1.unread x0) (k0_pay1 (F := F)) n

/-- The body's one store covers the output block, and its payload is the last payload of the body over the carried column,
    the remainder and the target block. -/
theorem out_eq (c : Dev nD) (i : grid0.Coords)
    (a1 : Memref sig .tc .vmem S128x20000 .f32) (h1 : a1.IsWhole) (a2 : Memref sig .tc .vmem S128x1 .f32) (h2 : a2.IsWhole)
    (a3 : Memref sig .tc .vmem S128x1 .f32) (h3 : a3.IsWhole) (x0 : Vec F S128x20000 .f32) (x1 : Vec F S128x1 .f32) :
    out0_A_2 c i a1 h1 a2 h2 a3 h3 x0 x1
      = k0_pay3 (carried c i a1 h1 a2 h2 a3 h3 x0 k0_t1_loop.trips) (rest x0) x1 := by
  unfold out0_A_2
  rw [View.read_writes_eq_canon _ _ _ (cover0_A_2 c i a1 h1 a2 h2 a3 h3 x0 x1)]
  unfold kernelRun0_A
  dsimp only
  rw [View.canon_unit_zero hz]
  simp only [View.readAt_eq_ld, h1.read_unread, h2.read_unread, View.ld_unit_zero (S := S128x1) hz]

end AnyFamily

/-! ## At the ideal values: the stored column is each row's term -/

section Ideal

/-- The loop makes fifteen trips. -/
theorem trips_eq : k0_t1_loop.trips = 15 := by decide

/-- Chunk `k` starts at column `1280·k` of row 0. -/
theorem off_col : ∀ k : Fin k0_t1_loop.trips, k0_off1 k 1 = 1280 * k.val := by decide +kernel
theorem off_row : ∀ k : Fin k0_t1_loop.trips, k0_off1 k 0 = 0 := by decide +kernel

/-- Chunk `k` at `(r, l)` is the block at `(r, 1280·k + l)`. -/
theorem chunk_apply (x0 : Vec Ideal S128x20000 .f32) (k : Fin k0_t1_loop.trips) (r : Fin 128) (l : Fin 1280)
    (hb : 1280 * k.val + l.val < 20000) :
    chunk x0 k (ix2 r l) = x0 (ix2 r ⟨1280 * k.val + l.val, hb⟩) := by
  show x0 _ = x0 _
  refine congrArg x0 (funext fun a => Fin.ext ?_)
  match a with
  | ⟨0, _⟩ => show k0_off1 k 0 + 1 * r.val = r.val; rw [off_row]; omega
  | ⟨1, _⟩ => show k0_off1 k 1 + 1 * l.val = 1280 * k.val + l.val; rw [off_col]; omega

/-- The remainder at `(r, l)` is the block at `(r, 19200 + l)`. -/
theorem rest_apply (x0 : Vec Ideal S128x20000 .f32) (r : Fin 128) (l : Fin 800) :
    rest x0 (ix2 r l) = x0 (ix2 r ⟨19200 + l.val, by omega⟩) := by
  show x0 _ = x0 _
  refine congrArg x0 (funext fun a => Fin.ext ?_)
  match a with
  | ⟨0, _⟩ => show 0 + 1 * r.val = r.val; omega
  | ⟨1, _⟩ => show 19200 + 1 * l.val = 19200 + l.val; omega

/-- A lane sum of `exp(v·s)` over the columns of a block with `w` columns, kept as a [128, 1] column, read at `(r, q)`. -/
theorem laneSum_apply {w : Nat} (v : FVec Ideal ⟨2, ![128, w]⟩ .f32) (hR : (⟨2, ![128, w]⟩ : Shape).Reduces [1] S128)
    (hC : S128.ShapeCasts S128x1) (hacc : (0x00000000#32 : BitVec 32) = 0x00000000#32) (r : Fin 128) (q : Fin 1) :
    shapeCast S128x1 (multiReduction .add [1] S128
        (exp (mulf v (broadcast ⟨2, ![128, w]⟩ (Scalar.ofBits .f32 0x41F00000#32)))) 0x00000000#32 hR (.inl rfl) hacc) hC (ix2 r q)
      = ∑ l : Fin w, Ideal.exp (v (ix2 r l) * scale) := by
  refine (shapeCast_apply _ hC (ix2 r q) (ix1 r) ?_).trans ?_
  · rw [Shape.rowMajor_val_one, Shape.rowMajor_val_two]
    show r.val = r.val * 1 + q.val
    have := q.isLt; omega
  refine (Ideal.multiReduction_add_single _ 0x00000000#32 hR (.inl rfl) hacc (ix1 r)).trans ?_
  refine Finset.sum_congr rfl fun l _ => ?_
  have hl : hR.lift (ix1 r) l = ix2 r l := funext fun a => Fin.ext (by match a with | ⟨0, _⟩ => rfl | ⟨1, _⟩ => rfl)
  rw [hl]
  rfl

/-- One trip's payload at `(r, q)`: the carried entry plus the chunk's row sum. -/
theorem pay2_apply (acc : FVec Ideal S128x1 .f32) (v : Vec Ideal S128x1280 .f32) (r : Fin 128) (q : Fin 1) :
    k0_pay2 acc v (ix2 r q) = acc (ix2 r q) + ∑ l : Fin 1280, Ideal.exp (v (ix2 r l) * scale) := by
  unfold k0_pay2
  exact congrArg (acc (ix2 r q) + ·) (laneSum_apply (w := 1280) v reduces_S128x1280_S128 shapeCasts_S128_S128x1 rfl r q)

/-- The last payload at `(r, q)`: the row's term over the carried entry plus the remainder's row sum. -/
theorem pay3_apply (v2 : FVec Ideal S128x1 .f32) (v5 : Vec Ideal S128x800 .f32) (v12 : Vec Ideal S128x1 .f32) (r : Fin 128) (q : Fin 1) :
    k0_pay3 v2 v5 v12 (ix2 r q)
      = scale * (v12 (ix2 r q) - margin)
          - Ideal.log (Ideal.exp (scale * (v12 (ix2 r q) - margin))
              + ((v2 (ix2 r q) + ∑ l : Fin 800, Ideal.exp (v5 (ix2 r l) * scale)) - Ideal.exp (scale * v12 (ix2 r q)))) := by
  unfold k0_pay3
  have hs := laneSum_apply (w := 800) v5 reduces_S128x800_S128 shapeCasts_S128_S128x1 rfl r q
  simp only [shapeCast_self]
  show scale * (v12 (ix2 r q) - margin) - Ideal.log (Ideal.exp (scale * (v12 (ix2 r q) - margin))
      + ((v2 (ix2 r q) + _) - Ideal.exp (scale * v12 (ix2 r q)))) = _
  rw [hs]

end Ideal

/-! ## The running column is a partial sum of the row, and the stored column is the row's term -/

section Rows

/-- A row's exponentials continued by zero past the row's end: partial sums over chunks become sums over ranges of naturals. -/
def term (x : Fin 20000 → EReal) (n : ℕ) : EReal := if h : n < 20000 then Ideal.exp (scale * x ⟨n, h⟩) else 0

theorem expSum_eq_range (x : Fin 20000 → EReal) : expSum x = ∑ n ∈ Finset.range 20000, term x n := by
  unfold expSum
  rw [← Fin.sum_univ_eq_sum_range (term x) 20000]
  exact Finset.sum_congr rfl fun j _ => by unfold term; rw [dif_pos j.isLt]

/-- `w` consecutive columns from column `a`, each read as `exp(x·s)`, sum to that stretch of the row's terms (`x·s = s·x`). -/
theorem stretch_sum (x : Fin 20000 → EReal) (a w : ℕ) (h : a + w ≤ 20000) (f : Fin w → EReal)
    (hf : ∀ l : Fin w, ∀ hb : a + l.val < 20000, f l = Ideal.exp (x ⟨a + l.val, hb⟩ * scale)) :
    ∑ l : Fin w, f l = ∑ n ∈ Finset.range w, term x (a + n) := by
  rw [← Fin.sum_univ_eq_sum_range (fun n => term x (a + n)) w]
  refine Finset.sum_congr rfl fun l _ => ?_
  have hb : a + l.val < 20000 := by have := l.isLt; omega
  rw [hf l hb]; unfold term; rw [dif_pos hb, mul_comm]

/-- After `n` trips the carried column holds, in row `r`, the sum of the row's first `1280·n` terms. -/
theorem carried_apply (c : Dev nD) (i : grid0.Coords)
    (a1 : Memref sig .tc .vmem S128x20000 .f32) (h1 : a1.IsWhole) (a2 : Memref sig .tc .vmem S128x1 .f32) (h2 : a2.IsWhole)
    (a3 : Memref sig .tc .vmem S128x1 .f32) (h3 : a3.IsWhole) (x0 : Vec Ideal S128x20000 .f32) (r : Fin 128) (q : Fin 1) :
    ∀ n : ℕ, n ≤ 15 → carried (F := Ideal) c i a1 h1 a2 h2 a3 h3 x0 n (ix2 r q)
      = ∑ k ∈ Finset.range (1280 * n), term (fun j => x0 (ix2 r j)) k
  | 0, _ => by
    show (k0_pay1 (F := Ideal)) (ix2 r q) = _
    rw [Nat.mul_zero, Finset.range_zero, Finset.sum_empty]
    exact Ideal.ofBits_zero_f32
  | n + 1, hn => by
    have hk : n < k0_t1_loop.trips := by rw [trips_eq]; omega
    have e := st_k0_t1_succ (F := Ideal) Variants.none c none i a1 h1 a2 h2 a3 h3 (h1.unread x0) (k0_pay1 (F := Ideal)) ⟨n, hk⟩
    refine (congrFun e (ix2 r q)).trans ?_
    rw [trip_eq, pay2_apply]
    have ih := carried_apply c i a1 h1 a2 h2 a3 h3 x0 r q n (by omega)
    unfold carried at ih
    rw [ih, show 1280 * (n + 1) = 1280 * n + 1280 from by ring, Finset.sum_range_add]
    refine congrArg (_ + ·) ?_
    exact stretch_sum (fun j => x0 (ix2 r j)) (1280 * n) 1280 (by omega) _ (fun l hb => by rw [chunk_apply x0 ⟨n, hk⟩ r l hb])

/-- THE BODY'S VALUE: on staging buffers holding a block `x0` of logits and a column `x1` of target logits, the stored column
    holds at row `r` the additive-margin softmax term of row `r` of the block. -/
theorem body_apply (c : Dev nD) (i : grid0.Coords)
    (a1 : Memref sig .tc .vmem S128x20000 .f32) (h1 : a1.IsWhole) (a2 : Memref sig .tc .vmem S128x1 .f32) (h2 : a2.IsWhole)
    (a3 : Memref sig .tc .vmem S128x1 .f32) (h3 : a3.IsWhole) (x0 : Vec Ideal S128x20000 .f32) (x1 : Vec Ideal S128x1 .f32)
    (r : Fin 128) (q : Fin 1) :
    out0_A_2 (F := Ideal) c i a1 h1 a2 h2 a3 h3 x0 x1 (ix2 r q) = rowLoss (fun j => x0 (ix2 r j)) (x1 (ix2 r q)) := by
  rw [out_eq, pay3_apply, carried_apply c i a1 h1 a2 h2 a3 h3 x0 r q k0_t1_loop.trips (le_of_eq trips_eq), trips_eq]
  unfold rowLoss
  have hsum : (∑ k ∈ Finset.range (1280 * 15), term (fun j => x0 (ix2 r j)) k) + ∑ l : Fin 800, Ideal.exp (rest x0 (ix2 r l) * scale)
      = expSum (fun j => x0 (ix2 r j)) := by
    rw [expSum_eq_range]
    show _ = ∑ n ∈ Finset.range (1280 * 15 + 800), term (fun j => x0 (ix2 r j)) n
    rw [Finset.sum_range_add]
    refine congrArg (_ + ·) ?_
    exact stretch_sum (fun j => x0 (ix2 r j)) (1280 * 15) 800 (by norm_num) _ (fun l hb => by rw [rest_apply x0 r l])
  rw [hsum]

end Rows

end Cert.KernelIdeal.Body

end
-- ==== Proof.KArray.lean ====
/-
  From the body's blocks to the result.

  The region has 32 points; at point `t` every window sits at block row `t`: the body reads rows `128·t … 128·t + 127` of the
  logits and of the target column and writes the same rows of the [4096, 1] output. So the output array after the region holds,
  in every row, that row's additive-margin softmax term (the blocks tile the array: row `i` is written by point `i / 128`), and
  the host lines after the region take its negated mean.
-/
import proofs.«402520_j69552700391485_3_alg».proof.Proof.KBody
import Idealize.ShloMosaic.Lib.StableHlo.Run

set_option maxRecDepth 16384

noncomputable section

namespace Cert.KernelIdeal.Rows

open Cert.KernelIdeal Cert.KernelIdeal.Gen Cert.MarginLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The rows' terms as a [4096, 1] column, from the logits and a column of target logits. -/
def rowsArr (wf : S4096x20000.Idx → EReal) (tg : S4096x1.Idx → EReal) : S4096x1.Idx → EReal :=
  fun y => rowLoss (fun j => wf (ix2 (y 0) j)) (tg y)

/-- The printed index maps, decided over the grid: at point `t` every window is at block `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The logits block of point `t` at `(r, j)` is the logits array at `(128·t + r, j)`. -/
theorem wfBlock_apply (c : Dev nD) (t : Fin cfg0.N) (r : Fin 128) (j : Fin 20000) (hb : 128 * t.val + r.val < 4096) :
    (iblk m c 0 t : Vec Ideal S128x20000 .f32) (ix2 r j) = V m c main_arg0 (ix2 ⟨128 * t.val + r.val, hb⟩ j) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 128 + 1 * r.val = 128 * t.val + r.val; rw [e0]; omega
  | ⟨1, _⟩ => show win0_0.index t (1 : Fin 2) * 20000 + 1 * j.val = j.val; rw [e1]; omega

/-- The target block of point `t` at `(r, q)` is the target column at `(128·t + r, q)`. -/
theorem tgBlock_apply (c : Dev nD) (t : Fin cfg0.N) (r : Fin 128) (q : Fin 1) (hb : 128 * t.val + r.val < 4096) :
    (iblk m c 1 t : Vec Ideal S128x1 .f32) (ix2 r q) = V m c main_v1 (ix2 ⟨128 * t.val + r.val, hb⟩ q) := by
  obtain ⟨-, -, e2, e3, -⟩ := idx_facts t
  unfold iblk
  rw [View.read_apply]
  show V m c main_v1 _ = V m c main_v1 _
  refine congrArg (V m c main_v1) (funext fun a => Fin.ext ?_)
  match a with
  | ⟨0, _⟩ => show win0_1.index t (0 : Fin 2) * 128 + 1 * r.val = 128 * t.val + r.val; rw [e2]; omega
  | ⟨1, _⟩ => show win0_1.index t (1 : Fin 2) * 1 + 1 * q.val = q.val; rw [e3]; omega

/-- WHAT POINT `t` WRITES BACK is block `t` of the rows' terms of the arrays as the region finds them. -/
theorem flushed_eq (c : Dev nD) (t : Fin cfg0.N) :
    (dats m 0 c).flushed 2 t = ((cfg0.win 2).blk t).view.read (Elt Ideal) (rowsArr (V m c main_arg0) (V m c main_v1)) := by
  show (cfg0.win 2).cut (grid0.coords t) ((dats m 0 c).after 2 t) = _
  rw [after0_2]
  unfold outsAt0
  obtain ⟨-, -, -, -, e4, e5⟩ := idx_facts t
  have hN : cfg0.N = 32 := N_0
  have ht : t.val < 32 := hN ▸ t.isLt
  funext y
  obtain ⟨r, q, rfl⟩ : ∃ (r : Fin 128) (q : Fin 1), y = ix2 r q := ⟨y 0, y 1, eq_ix2 y⟩
  have hb : 128 * t.val + r.val < 4096 := by have := r.isLt; omega
  refine (Cert.KernelIdeal.Body.body_apply c (grid0.coords t) (ms0_0 t) (hs0_0 t) (ms0_1 t) (hs0_1 t) (ms0_2 t) (hs0_2 t) (iblk m c 0 t) (iblk m c 1 t) r q).trans ?_
  rw [View.read_apply]
  have hemb : ((cfg0.win 2).blk t).view.emb (ix2 r q) = (ix2 ⟨128 * t.val + r.val, hb⟩ q : S4096x1.Idx) := by
    funext a; apply Fin.ext
    match a with
    | ⟨0, _⟩ => show win0_2.index t (0 : Fin 2) * 128 + 1 * r.val = 128 * t.val + r.val; rw [e4]; omega
    | ⟨1, _⟩ => show win0_2.index t (1 : Fin 2) * 1 + 1 * q.val = q.val; rw [e5]; omega
  rw [hemb]
  unfold rowsArr
  rw [tgBlock_apply m c t r q hb]
  refine congrArg (fun x => rowLoss x _) (funext fun j => ?_)
  exact wfBlock_apply m c t r j hb

/-- An index of the output array is in point `t`'s block iff each coordinate is in the block's range on its axis. -/
theorem mem_blk (t : Fin cfg0.N) (i : S4096x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v2).slice (win0_2.rect t)).set ↔ _
  rw [View.set_slice_whole, Rect.mem_set_unit]
  exact Iff.rfl

/-- THE OUTPUT ARRAY after the region: every row holds its term (row `i` is in the block of point `i / 128`). -/
theorem final (c : Dev nD) : (dats m 0 c).arrAt 2 cfg0.N = rowsArr (V m c main_arg0) (V m c main_v1) :=
  (dats m 0 c).arrAt_eq_of_cover 2 _ (fun t _ => flushed_eq m c t) fun i => by
    have hN : cfg0.N = 32 := N_0
    have h0 : (i 0).val < 4096 := (i 0).isLt
    have h1 : (i 1).val < 1 := (i 1).isLt
    let t : Fin cfg0.N := ⟨(i 0).val / 128, by rw [hN]; omega⟩
    obtain ⟨-, -, -, -, e4, e5⟩ := idx_facts t
    have tv : t.val = (i 0).val / 128 := rfl
    refine ⟨t, flush0_2 t, ?_⟩
    rw [mem_blk]
    intro a
    match a with
    | ⟨0, _⟩ => show win0_2.index t (0 : Fin 2) * 128 ≤ (i 0).val ∧ (i 0).val < win0_2.index t (0 : Fin 2) * 128 + 128; rw [e4, tv]; omega
    | ⟨1, _⟩ => show win0_2.index t (1 : Fin 2) * 1 ≤ (i 1).val ∧ (i 1).val < win0_2.index t (1 : Fin 2) * 1 + 1; rw [e5]; omega

end Cert.KernelIdeal.Rows

end
-- ==== Proof.KRun.lean ====
/-
  The kernel program's run, read: after the region the output column holds the rows' terms; the host lines after it reshape the
  column to a vector, sum it from 0, divide by the word of 4096 and negate — the negated mean of the rows' terms.
-/
import proofs.«402520_j69552700391485_3_alg».proof.Proof.KArray

set_option maxRecDepth 16384

noncomputable section

namespace Cert.KernelIdeal.Rows

open Cert.KernelIdeal Cert.KernelIdeal.Gen Cert.MarginLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The rows' column over a target column that holds each row's target logit, reshaped [4096, 1] → [4096], is the rows' vector:
    entry `r` of the vector is entry `(r, 0)` of the column. -/
theorem reshape_rows (wf : S4096x20000.Idx → EReal) (l : S4096.Idx → BitVec 32) (tg : S4096x1.Idx → EReal)
    (htg : tg = fun y => target wf l (y 0)) (h : S4096x1.ShapeCasts S4096) :
    shapeCast S4096 (rowsArr wf tg) h = lossVec wf l := by
  subst htg
  funext i
  obtain ⟨r, rfl⟩ : ∃ r : Fin 4096, i = ix1 r := ⟨i 0, eq_ix1 i⟩
  refine (shapeCast_apply _ h (ix1 r) (ix2 r (0 : Fin 1)) ?_).trans ?_
  · rw [Shape.rowMajor_val_one, Shape.rowMajor_val_two]
    show r.val * 1 + 0 = r.val
    omega
  · rfl

/-- What the host lines after the region leave in the result buffer: the negated mean of the output column reshaped. -/
theorem tail_eq (c : Dev nD) :
    (Pipeline.afterTail₀ cfgs (dats m) 0 (V0 m) [hostOps1] c main_v6 : S_.Idx → EReal)
      = negMean reducesTo_S4096_S_d0 h_S_
          (shapeCast S4096 (rowsArr (V m c main_arg0) (V m c main_v1)) shapeCasts_S4096x1_S4096) := by
  unfold Pipeline.afterTail₀
  simp only [List.flatten_cons, List.flatten_nil, List.append_nil]
  show StableHlo.after hostOps1 _ (Proc.devRef .tc main_v6) = _
  after_results
  have hw : Pipeline.withArrays (cfgs 0).spec c (V0 m c) (fun w => (dats m 0 c).arrAt w (cfgs 0).N) (Proc.devRef .tc main_v2)
      = rowsArr (V m c main_arg0) (V m c main_v1) :=
    (Pipeline.withArrays_arr spec0 launch0.win.arr_inj c _ _ 2).trans (final m c)
  unfold negMean
  refine congrArg (fun L : S4096.Idx → EReal => Host.negf (F := Ideal) (Host.divf (F := Ideal)
    (Host.reduceAdd (F := Ideal) (φ := .f32) L (constant (F := Ideal) S_ .f32 0x00000000#32) reducesTo_S4096_S_d0 h_S_)
    (constant (F := Ideal) S_ .f32 0x45800000#32))) ?_
  funext i
  show shapeCast S4096 (Pipeline.withArrays (cfgs 0).spec c (V0 m c) (fun w => (dats m 0 c).arrAt w (cfgs 0).N) (Proc.devRef .tc main_v2))
    shapeCasts_S4096x1_S4096 i = _
  rw [hw]

/-- THE KERNEL PROGRAM'S RUN: with the target column holding each row's target logit, every weakly fair execution ends with the
    result at the negated mean of the rows' terms and the arguments unchanged. -/
theorem run (htg : ∀ c : Dev nD, (V m c main_v1 : S4096x1.Idx → EReal)
      = fun y => target (m ((c : Thread nD τ).loc main_arg0)) (m ((c : Thread nD τ).loc main_arg1)) (y 0)) :
    θ_run defs (onTc (τ := τ) (main (F := Ideal))) ⟨m, fun _ => 0, ρ⟩ fun r => ∀ c : Dev nD,
      r.2.mem ((c : Thread nD τ).loc main_v6)
          = negMean reducesTo_S4096_S_d0 h_S_ (lossVec (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => by
    have e6 := ((h c).2 main_v6 (Pipeline.mem_restRefs_of main_v6 (by decide) (by decide))).trans (tail_eq m c)
    have e0 := ((h c).1 0).trans (((dats m 0 c).arrAt_in 0 rfl _).trans ((A_eq m c 0).trans (V_main_arg0 m c)))
    have e1 := ((h c).2 main_arg1 (Pipeline.mem_restRefs_of main_arg1 (by decide) (by decide))).trans (W_main_arg1 m (dats m) c)
    have hv : (V m c main_arg0 : S4096x20000.Idx → EReal) = m ((c : Thread nD τ).loc main_arg0) := V_main_arg0 m c
    have hr := reshape_rows (V m c main_arg0) (m ((c : Thread nD τ).loc main_arg1)) (V m c main_v1)
      (by rw [hv]; exact htg c) shapeCasts_S4096x1_S4096
    rw [hv] at hr
    exact ⟨e6.trans (congrArg (negMean reducesTo_S4096_S_d0 h_S_) hr), e0, e1⟩)
    (run_main m ρ)

end Cert.KernelIdeal.Rows

end
-- ==== Proof.RefRows.lean ====
/-
  The reference's rows: before its final mean, the reference holds one term per row, and for labels in range that
  term is the additive-margin softmax term of the row (Spec.lean's `lossVec`).

  The reference reads its target logit by a point gather: result element `r` is the operand at the pair of start
  indices in row `r` of a `[4096, 2]` index array, each read as a signed integer and clamped into its axis. Column 0
  of that array is the row number `r` as a word and column 1 the label, each passed through "add the extent if
  negative"; a row number below 4096 and a label below 20000 are not negative as signed words, so both pass through
  unchanged, read signed as their unsigned values, and the clamps change nothing. So the gathered element is
  `wf[r, label r]`, and the rest is one elementwise chain and one row sum.
-/
import proofs.«402520_j69552700391485_3_alg».proof.Proof.Spec
import proofs.«402520_j69552700391485_3_alg».proof.Proof.Gen.ReferenceIdeal.Read
import Idealize.ShloMosaic.Lib.StableHlo.Predicate

noncomputable section

namespace Cert.ReferenceIdeal.Rows

open Cert.ReferenceIdeal Cert.ReferenceIdeal.Gen Cert.MarginLoss
open Idealize.ShloMosaic Idealize.ShloMosaic.ValueIdx

/-! ## The point gather read at a row

Both operand axes are collapsed and both are named by the start index map, in order, with the index vector on axis 1
of the start indices: on operand axis `k` the operand index of result element `r` is the start index `idx[r, k]` read
signed and clamped into `[0, size k − 1]`, with no batching and no offset coordinate added. -/

/-- The point gather at row `r`, for any operand and any index array: the operand at
    `(clamp idx[r, 0], clamp idx[r, 1])`. -/
theorem gather_point_apply {α : Type} (x : S4096x20000.Idx → α) (idx : IVec S4096x2 32) (r : Fin 4096) :
    Host.gather gather_S4096x20000_S4096x2_S4096_n_01_n_n_01_1_11 x idx (ix1 r)
      = x (ix2 (⟨min (idx (ix2 r (0 : Fin 2))).toInt.toNat 4095, by omega⟩ : Fin 4096)
            (⟨min (idx (ix2 r (1 : Fin 2))).toInt.toNat 19999, by omega⟩ : Fin 20000)) := by
  unfold Host.gather
  congr 1
  funext a
  refine Fin.ext ?_
  show gather_S4096x20000_S4096x2_S4096_n_01_n_n_01_1_11.start (ix1 r) idx a
      + gather_S4096x20000_S4096x2_S4096_n_01_n_n_01_1_11.batchCoord (ix1 r) a
      + gather_S4096x20000_S4096x2_S4096_n_01_n_n_01_1_11.offCoord (ix1 r) a = _
  -- no operand axis is a batching axis
  rw [GatherDims.batchCoord_eq_zero _ _ _ List.not_mem_nil]
  match a with
  | ⟨0, _⟩ =>
    -- axis 0 is collapsed (no offset coordinate) and is component 0 of the start index, read at `[r, 0]`
    rw [GatherDims.offCoord_eq_zero _ _ _ (fun h => ((GatherDims.mem_sKept _ _).mp h).1 (List.Mem.head _))]
    simp only [Nat.add_zero]
    unfold GatherDims.start
    rw [dif_pos (show (⟨0, by omega⟩ : Fin 2) ∈ gather_S4096x20000_S4096x2_S4096_n_01_n_n_01_1_11.startIndexMap from List.Mem.head _)]
    have hsi : gather_S4096x20000_S4096x2_S4096_n_01_n_n_01_1_11.siIdx (ix1 r)
        ⟨List.idxOf (⟨0, by omega⟩ : Fin 2) gather_S4096x20000_S4096x2_S4096_n_01_n_n_01_1_11.startIndexMap,
          List.idxOf_lt_length_iff.2 (List.Mem.head _)⟩ = ix2 r (0 : Fin 2) := by
      funext b; refine Fin.ext ?_
      match b with
      | ⟨0, _⟩ => rfl
      | ⟨1, _⟩ => rfl
    rw [hsi]
    rfl
  | ⟨1, _⟩ =>
    -- axis 1 is collapsed (no offset coordinate) and is component 1 of the start index, read at `[r, 1]`
    rw [GatherDims.offCoord_eq_zero _ _ _ (fun h => ((GatherDims.mem_sKept _ _).mp h).1 (List.Mem.tail _ (List.Mem.head _)))]
    simp only [Nat.add_zero]
    unfold GatherDims.start
    rw [dif_pos (show (⟨1, by omega⟩ : Fin 2) ∈ gather_S4096x20000_S4096x2_S4096_n_01_n_n_01_1_11.startIndexMap from List.Mem.tail _ (List.Mem.head _))]
    have hsi : gather_S4096x20000_S4096x2_S4096_n_01_n_n_01_1_11.siIdx (ix1 r)
        ⟨List.idxOf (⟨1, by omega⟩ : Fin 2) gather_S4096x20000_S4096x2_S4096_n_01_n_n_01_1_11.startIndexMap,
          List.idxOf_lt_length_iff.2 (List.Mem.tail _ (List.Mem.head _))⟩ = ix2 r (1 : Fin 2) := by
      funext b; refine Fin.ext ?_
      match b with
      | ⟨0, _⟩ => rfl
      | ⟨1, _⟩ => rfl
    rw [hsi]
    rfl

/-! ## Words: a word below 2³¹ is not negative -/

/-- "Add `c` if negative" leaves a word below 2³¹ unchanged: its signed comparison with zero is false. -/
theorem wrap_eq (w c : BitVec 32) (hw : w.toNat < 2 ^ 31) :
    Scalar.select (IntOp.cmpi .slt w 0#32) (IntOp.addi w c) w = w := by
  have h : IntOp.cmpi .slt w 0#32 = 0#1 := eq_zero_of_ne_one (fun h1 => by
    have := (StableHlo.Predicate.slt_iff_toNat hw (by decide)).mp h1
    simp at this)
  rw [h, select_zero]

/-- A word below 2³¹ read signed, then as a natural, is its unsigned value. -/
theorem toInt_toNat_small (w : BitVec 32) (hw : w.toNat < 2 ^ 31) : w.toInt.toNat = w.toNat := by
  rw [StableHlo.Predicate.toInt_eq_toNat_of_lt hw, Int.toNat_natCast]

/-! ## The two columns of the index array -/

/-- Column 0 at row `r` is the first piece of the concatenation at `[r, 0]`: the row-number word `r` through
    "add 4096 if negative", which is `r` since `r < 4096`. -/
theorem col0_apply (x1 : (⟨S4096, .i32⟩ : BufTy).Contents (Elt Ideal)) (r : Fin 4096) :
    Read.val_main_v13 (F := Ideal) x1 (ix2 r (0 : Fin 2)) = BitVec.ofNat 32 r.val := by
  unfold Read.val_main_v13
  rw [concatenate_pair_apply_left (t := S4096x2) (s₁ := S4096x1) (s₂ := S4096x1) (1 : Fin 2) _ _ _
    (ix2 r (0 : Fin 2)) rfl (ix2 r (0 : Fin 1))
    (fun b => by match b with | ⟨0, _⟩ => rfl | ⟨1, _⟩ => rfl)]
  rw [Read.val_main_v11_apply]
  have hi : Read.idx_main_v11 (ix2 r (0 : Fin 1)) = ix1 r := by
    funext a; match a with | ⟨0, _⟩ => rfl
  rw [hi, Read.val_main_v5_apply, Read.val_main_v2_apply, Read.val_main_v4_apply, Read.val_main_v0_apply,
    Read.val_main_v1_apply, Read.val_main_c_apply]
  exact wrap_eq (BitVec.ofNat 32 r.val) _ (by rw [BitVec.toNat_ofNat]; have := r.isLt; omega)

/-- Column 1 at row `r` is the second piece of the concatenation at `[r, 1 − 1]`: the label through
    "add 20000 if negative", which is the label since it is below 20000. -/
theorem col1_apply (x1 : (⟨S4096, .i32⟩ : BufTy).Contents (Elt Ideal)) (hl : InRange x1) (r : Fin 4096) :
    Read.val_main_v13 (F := Ideal) x1 (ix2 r (1 : Fin 2)) = x1 (ix1 r) := by
  unfold Read.val_main_v13
  rw [concatenate_pair_apply_right (t := S4096x2) (s₁ := S4096x1) (s₂ := S4096x1) (1 : Fin 2) _ _ _
    (ix2 r (1 : Fin 2)) rfl rfl (ix2 r (0 : Fin 1))
    (fun b hb => by match b, hb with | ⟨0, _⟩, _ => rfl | ⟨1, _⟩, hb => exact absurd rfl hb) rfl]
  rw [Read.val_main_v12_apply]
  have hi : Read.idx_main_v12 (ix2 r (0 : Fin 1)) = ix1 r := by
    funext a; match a with | ⟨0, _⟩ => rfl
  rw [hi, Read.val_main_v10_apply, Read.val_main_v7_apply, Read.val_main_v9_apply, Read.val_main_v6_apply,
    Read.val_main_c_1_apply]
  exact wrap_eq _ _ (by have := hl (ix1 r); omega)

/-- The index array is built twice by the same operations on the same operands: the second is the first. -/
theorem v35_eq (x1 : (⟨S4096, .i32⟩ : BufTy).Contents (Elt Ideal)) :
    Read.val_main_v35 (F := Ideal) x1 = Read.val_main_v13 (F := Ideal) x1 := rfl

/-- The point gather of any operand at the reference's index array, row `r`, for labels in range: the operand at
    `[r, label r]`. Both start indices read signed are their unsigned values (`r < 4096`, label `< 20000`), and
    `min r 4095 = r`. -/
theorem point_apply {α : Type} (x : S4096x20000.Idx → α) (x1 : (⟨S4096, .i32⟩ : BufTy).Contents (Elt Ideal))
    (hl : InRange x1) (r : Fin 4096) :
    Host.gather gather_S4096x20000_S4096x2_S4096_n_01_n_n_01_1_11 x (Read.val_main_v13 (F := Ideal) x1) (ix1 r)
      = x (ix2 r (col (x1 (ix1 r)))) := by
  rw [gather_point_apply]
  unfold col
  refine congrArg x (congrArg₂ ix2 (Fin.ext ?_) (Fin.ext ?_))
  · show min (Read.val_main_v13 (F := Ideal) x1 (ix2 r (0 : Fin 2))).toInt.toNat 4095 = r.val
    have hr : (BitVec.ofNat 32 r.val).toNat = r.val := by
      rw [BitVec.toNat_ofNat]; have := r.isLt; omega
    rw [col0_apply, toInt_toNat_small _ (by rw [hr]; have := r.isLt; omega), hr]
    have := r.isLt; omega
  · show min (Read.val_main_v13 (F := Ideal) x1 (ix2 r (1 : Fin 2))).toInt.toNat 19999 = min (x1 (ix1 r)).toNat 19999
    rw [col1_apply x1 hl, toInt_toNat_small _ (by have := hl (ix1 r); omega)]

/-- The vector the reference reduces at the end (`%41`), for labels in range, is the rows' terms. -/
theorem rows_eq (x0 : (⟨S4096x20000, .f32⟩ : BufTy).Contents (Elt Ideal)) (x1 : (⟨S4096, .i32⟩ : BufTy).Contents (Elt Ideal))
    (hl : InRange x1) :
    Cert.ReferenceIdeal.Read.val_main_v41 (F := Ideal) x0 x1 = lossVec x0 x1 := by
  funext i
  obtain ⟨r, rfl⟩ : ∃ r : Fin 4096, i = ix1 r := ⟨i 0, eq_ix1 i⟩
  -- the gathered logit is the row's target logit
  have h14 : Read.val_main_v14 (F := Ideal) x0 x1 (ix1 r) = target x0 x1 r := by
    unfold Read.val_main_v14 target
    exact point_apply x0 x1 hl r
  -- the gathered exponential is the exponential array at the target's position
  have h36 : Read.val_main_v36 (F := Ideal) x0 x1 (ix1 r)
      = Read.val_main_v21 (F := Ideal) x0 (ix2 r (col (x1 (ix1 r)))) := by
    unfold Read.val_main_v36
    rw [v35_eq]
    exact point_apply _ x1 hl r
  rw [Read.val_main_v41_apply, Read.val_main_v40_apply, Read.val_main_v39_apply, Read.val_main_v38_apply,
    Read.val_main_v37_apply, Read.val_main_v18_apply, Read.val_main_v17_apply, Read.val_main_cst_3_apply,
    Read.val_main_v16_apply, Read.val_main_v15_apply, Read.val_main_cst_apply, Read.val_main_v22_apply,
    Read.val_main_cst_5_apply, h14, h36]
  -- the exponential array at an index is exp (scale · logit)
  have h21 : ∀ j : S4096x20000.Idx, Read.val_main_v21 (F := Ideal) x0 j = Ideal.exp (scale * x0 j) := fun j => by
    rw [Read.val_main_v21_apply, Read.val_main_v20_apply, Read.val_main_v19_apply, Read.val_main_cst_4_apply]
    rfl
  -- the row sum runs over the positions (r, k)
  have hidx : ∀ k : Fin 20000, Read.idx_main_v22 (ix1 r) k = ix2 r k := fun k => by
    funext a; match a with | ⟨0, _⟩ => rfl | ⟨1, _⟩ => rfl
  have hsum : ∑ k : Fin 20000, Read.val_main_v21 (F := Ideal) x0 (Read.idx_main_v22 (ix1 r) k)
      = expSum (fun j => x0 (ix2 r j)) := by
    unfold expSum
    exact Finset.sum_congr rfl (fun k _ => by rw [hidx, h21])
  rw [hsum, h21]
  simp only [Ideal.ofBits_def, Ideal.subf_def, Ideal.mulf_def, Ideal.addf_def, Ideal.hostUnary_exp_def,
    Ideal.hostUnary_log_def]
  -- the sum starts from the word of zero, which is 0; the scale and margin words are the specification's
  rw [Ideal.ofBits_zero_f32, zero_add]
  rfl

end Cert.ReferenceIdeal.Rows

end
-- ==== Proof.lean ====
/-
  The additive-margin softmax loss: the kernel program against its reference, over the extended reals.

  Both programs compute, from logits `wf : [4096, 20000]` and labels `l : [4096]`,
      −( (0 + Σ_i L i) / 4096 ),   L i = s·(t_i − m) − log( exp(s·(t_i − m)) + ( Σ_j exp(s·wf[i, j]) − exp(s·t_i) ) ),   t_i = wf[i, l i],
  with `s` and `m` the values of the same two f32 words on both sides.
  * The kernel program gathers the target column `t` on the host (filling a not-a-number where a label is out of range), runs
    one region of 32 points over row blocks of 128 rows — the body sums each row's exponentials in fifteen chunks of 1280
    columns carried through a loop plus a remainder of 800 — and takes the negated mean on the host.
  * The reference gathers `t` and `exp(s·t)` by point gathers (clamping the index), sums each row at once, and takes the same
    negated mean.
  The two agree because a sum over a row is the sum over its chunks (addition of extended reals is commutative and associative;
  `x·s = s·x`), and because for a label in `[0, 20000)` both gathers read the label's own column: the kernel's range test passes
  and the reference's clamp changes nothing. That range is the precondition's second conjunct; the finiteness of the logits is not used.
  The kernel's idealization rewrote no operation, so `preserves` is `True`; the frames of the two kernel programs are the generated
  ones, and the reference's frame is its generated run with the result dropped.
-/
import proofs.«402520_j69552700391485_3_alg».proof.Defs
import proofs.«402520_j69552700391485_3_alg».proof.Proof.Gen.Kernel
import proofs.«402520_j69552700391485_3_alg».proof.Proof.Gen.Kernel.Skeleton
import proofs.«402520_j69552700391485_3_alg».proof.Proof.Gen.Kernel.Loops
import proofs.«402520_j69552700391485_3_alg».proof.Proof.Gen.Kernel.Launch
import proofs.«402520_j69552700391485_3_alg».proof.Proof.Gen.Kernel.Points
import proofs.«402520_j69552700391485_3_alg».proof.Proof.Gen.Kernel.Frame
import proofs.«402520_j69552700391485_3_alg».proof.Proof.Gen.KernelIdeal
import proofs.«402520_j69552700391485_3_alg».proof.Proof.Gen.KernelIdeal.Skeleton
import proofs.«402520_j69552700391485_3_alg».proof.Proof.Gen.KernelIdeal.Loops
import proofs.«402520_j69552700391485_3_alg».proof.Proof.Gen.KernelIdeal.Launch
import proofs.«402520_j69552700391485_3_alg».proof.Proof.Gen.KernelIdeal.Points
import proofs.«402520_j69552700391485_3_alg».proof.Proof.Gen.KernelIdeal.Frame
import proofs.«402520_j69552700391485_3_alg».proof.Proof.Gen.ReferenceIdeal
import proofs.«402520_j69552700391485_3_alg».proof.Proof.Gen.Pre_finite_inputs
import proofs.«402520_j69552700391485_3_alg».proof.Proof.Gen.ReferenceIdeal.Run
import proofs.«402520_j69552700391485_3_alg».proof.Proof.Gen.ReferenceIdeal.Read
import proofs.«402520_j69552700391485_3_alg».proof.Proof.PreRange
import proofs.«402520_j69552700391485_3_alg».proof.Proof.KTarget
import proofs.«402520_j69552700391485_3_alg».proof.Proof.KRun
import proofs.«402520_j69552700391485_3_alg».proof.Proof.RefRows
import Idealize.ShloMosaic.Adequacy
import Idealize.ShloMosaic.Init

noncomputable section

namespace Cert.Proof

open Idealize.ShloMosaic Idealize.SL.Sem Cert.MarginLoss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's result is the negated mean of the vector it reduces last (`%41`): its last three operations are the mean's. -/
theorem ref_result (x0 : (⟨Cert.ReferenceIdeal.S4096x20000, .f32⟩ : BufTy).Contents (Elt Ideal))
    (x1 : (⟨Cert.ReferenceIdeal.S4096, .i32⟩ : BufTy).Contents (Elt Ideal)) :
    Cert.ReferenceIdeal.Read.val_main_v44 (F := Ideal) x0 x1
      = negMean Cert.ReferenceIdeal.Facts₀.reducesTo_S4096_S_d0 Cert.ReferenceIdeal.Facts₀.h_S_
          (Cert.ReferenceIdeal.Read.val_main_v41 (F := Ideal) x0 x1) := rfl

/-- Run from memories agreeing on the logits and the labels, with every label a column index, both programs end with the
    negated mean of the rows' additive-margin softmax terms. -/
theorem algebraic : Cert.algebraic_KernelIdeal_ReferenceIdeal := by
  intro m ρ m' ρ' hpre hagree
  have hl : ∀ c : Dev Cert.KernelIdeal.nD, InRange (m ((c.tc : Thread Cert.KernelIdeal.nD Cert.KernelIdeal.τ).loc Cert.KernelIdeal.main_arg1)) :=
    fun c => inRange_of_pre _ _ (hpre c)
  refine ⟨_, Cert.KernelIdeal.Rows.run m ρ (fun c => Cert.KernelIdeal.Target.target_eq m c (hl c)), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v44_eq, ref_result,
    Cert.ReferenceIdeal.Rows.rows_eq _ _ (hl c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
